-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S12 : Shape := ⟨1, ![12]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel
  bcast_S_S12 : S_.BroadcastsInDim S12 (![] : Fin 0 → Fin S12.rank)
  reducesTo_S12_S_d0 : S12.ReducesTo [0] S_

variable [Facts]

def fn {F : FTy → Type} [FloatOps F] (main_arg0 : FVec F S4194304x5 .f32) (main_arg1 : FVec F S12 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S12 .f32 := Host.absf main_arg1
  let main_cst_0 : FVec F S_ .f32 := constant S_ .f32 0x7F800000#32
  let main_v5 : FVec F S12 .f32 := broadcastInDim S12 ![] bcast_S_S12 main_cst_0
  let main_v6 : IVec S12 1 := cmpf .olt main_v4 main_v5
  let main_c_1 : IVec S_ 1 := constantI S_ 1 1#1
  let main_v7 : IVec S_ 1 := (fun x v => Host.reduce IntOp.andi x v reducesTo_S12_S_d0 h_S_) main_v6 main_c_1
  let main_v8 : IVec S_ 1 := andi main_v3 main_v7
  main_v8
-- ==== Kernel.lean ====
abbrev S4194304x5 : Shape := ⟨2, ![4194304, 5]⟩
abbrev S12 : Shape := ⟨1, ![12]⟩
abbrev S5x12 : Shape := ⟨2, ![5, 12]⟩
abbrev S_ : Shape := ⟨0, ![]⟩
abbrev S12x5 : Shape := ⟨2, ![12, 5]⟩
abbrev S4096x5 : Shape := ⟨2, ![4096, 5]⟩
abbrev S4096x1 : Shape := ⟨2, ![4096, 1]⟩
abbrev S4096 : Shape := ⟨1, ![4096]⟩
abbrev S4096x12 : Shape := ⟨2, ![4096, 12]⟩
abbrev S1x12 : Shape := ⟨2, ![1, 12]⟩

abbrev nBuf : Space → Nat
  | .hbm => 8
  | .vmem => 6
  | .smem => 0
  | _ => 0

abbrev bufTy : (tb : Table) → Fin (tcTables nBuf tb) → BufTy
  | .hbm, ⟨0, _⟩ => ⟨S4194304x5, .f32⟩
  | .hbm, ⟨1, _⟩ => ⟨S12, .f32⟩
  | .hbm, ⟨2, _⟩ => ⟨S5x12, .f32⟩
  | .hbm, ⟨3, _⟩ => ⟨S_, .f32⟩
  | .hbm, ⟨4, _⟩ => ⟨S12, .f32⟩
  | .hbm, ⟨5, _⟩ => ⟨S12, .f32⟩
  | .hbm, ⟨6, _⟩ => ⟨S12x5, .f32⟩
  | .hbm, ⟨7, _⟩ => ⟨S4194304x5, .f32⟩
  | .local _ .vmem, ⟨0, _⟩ => ⟨S4096x5, .f32⟩
  | .local _ .vmem, ⟨1, _⟩ => ⟨S4096x5, .f32⟩
  | .local _ .vmem, ⟨2, _⟩ => ⟨S12, .f32⟩
  | .local _ .vmem, ⟨3, _⟩ => ⟨S12x5, .f32⟩
  | .local _ .vmem, ⟨4, _⟩ => ⟨S4096x5, .f32⟩
  | .local _ .vmem, ⟨5, _⟩ => ⟨S4096x5, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S12 : S_.BroadcastsInDim S12 (![] : Fin 0 → Fin S12.rank)
  transposes_S5x12_S12x5_1_0 : S5x12.Transposes [1, 0] S12x5
  inb_S4096x5_S4096x5_0_0 : ∀ a, (![0, 0] : Fin 2 → Nat) a + S4096x5.size a ≤ S4096x5.size a
  h_S4096x5 : 0 < S4096x5.numel
  slices_S4096x5_o0_0_S4096x1 : S4096x5.Slices ![0, 0] S4096x1
  shapeCasts_S4096x1_S4096 : S4096x1.ShapeCasts S4096
  slices_S4096x5_o0_1_S4096x1 : S4096x5.Slices ![0, 1] S4096x1
  slices_S4096x5_o0_2_S4096x1 : S4096x5.Slices ![0, 2] S4096x1
  slices_S4096x5_o0_3_S4096x1 : S4096x5.Slices ![0, 3] S4096x1
  slices_S4096x5_o0_4_S4096x1 : S4096x5.Slices ![0, 4] S4096x1
  shapeCasts_S4096_S4096x1 : S4096.ShapeCasts S4096x1
  concatenates_S4096x1_S4096x1_S4096x1_S4096x1_S4096x1_S4096x1_S4096x1_S4096x1_S4096x1_S4096x1_S4096x1_S4096x1_S4096x12_d1 : Shape.Concatenates [S4096x1, S4096x1, S4096x1, S4096x1, S4096x1, S4096x1, S4096x1, S4096x1, S4096x1, S4096x1, S4096x1, S4096x1] S4096x12 1
  inb_S12_S12_0 : ∀ a, (![0] : Fin 1 → Nat) a + S12.size a ≤ S12.size a
  h_S12 : 0 < S12.numel
  shapeCasts_S12_S12 : S12.ShapeCasts S12
  shapeCasts_S12_S1x12 : S12.ShapeCasts S1x12
  broadcasts_S1x12_S4096x12 : S1x12.Broadcasts S4096x12
  bitsLt_bf16_f32 : FTy.bits .bf16 < FTy.bits .f32
  inb_S12x5_S12x5_0_0 : ∀ a, (![0, 0] : Fin 2 → Nat) a + S12x5.size a ≤ S12x5.size a
  h_S12x5 : 0 < S12x5.numel
  shapeCasts_S12x5_S12x5 : S12x5.ShapeCasts S12x5
  dot_S4096x12_S12x5_S4096x5_1_0_0_1_n_n_wf : DotDims.WF S4096x12 S12x5 S4096x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x5.size a ≤ S4194304x5.size a
  hwx0_0 : ∀ i : grid0.Coords, EltTy.bits .f32 = 32 ∨ (Rect.block (s := S4194304x5) S4096x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12.size a ≤ S12.size a
  hwx0_1 : ∀ i : grid0.Coords, EltTy.bits .f32 = 32 ∨ (Rect.block (s := S12) S12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x5.size a ≤ S12x5.size a
  hwx0_2 : ∀ i : grid0.Coords, EltTy.bits .f32 = 32 ∨ (Rect.block (s := S12x5) S12x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x5.size a ≤ S4194304x5.size a
  hwx0_3 : ∀ i : grid0.Coords, EltTy.bits .f32 = 32 ∨ (Rect.block (s := S4194304x5) S4096x5.size (cc0_transform_3 i) (hinb0_3 i)).WholeWords (EltTy.packing .f32)

variable [Facts₀]

def dot_S4096x12_S12x5_S4096x5_1_0_0_1_n_n : DotDims S4096x12 S12x5 S4096x5 where
  lhsContracting := [1]
  rhsContracting := [0]
  lhsNonContracting := [0]
  rhsNonContracting := [1]
  lhsBatch := []
  rhsBatch := []
  wf := dot_S4096x12_S12x5_S4096x5_1_0_0_1_n_n_wf

abbrev win0_0 : Pipeline.Window sig grid0 :=
  Pipeline.Window.ofSpec (Memref.whole main_arg0) S4096x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S12 : Shape := ⟨1, ![12]⟩
abbrev S5x12 : Shape := ⟨2, ![5, 12]⟩
abbrev S4194304x1 : Shape := ⟨2, ![4194304, 1]⟩
abbrev S4194304 : Shape := ⟨1, ![4194304]⟩
abbrev S4194304x12 : Shape := ⟨2, ![4194304, 12]⟩
abbrev S_ : Shape := ⟨0, ![]⟩
abbrev S1x12 : Shape := ⟨2, ![1, 12]⟩
abbrev S12x5 : Shape := ⟨2, ![12, 5]⟩

abbrev nBuf : Space → Nat
  | .hbm => 43
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S12, .f32⟩
  | .hbm, ⟨2, _⟩ => ⟨S5x12, .f32⟩
  | .hbm, ⟨3, _⟩ => ⟨S4194304x1, .f32⟩
  | .hbm, ⟨4, _⟩ => ⟨S4194304, .f32⟩
  | .hbm, ⟨5, _⟩ => ⟨S4194304x1, .f32⟩
  | .hbm, ⟨6, _⟩ => ⟨S4194304, .f32⟩
  | .hbm, ⟨7, _⟩ => ⟨S4194304x1, .f32⟩
  | .hbm, ⟨8, _⟩ => ⟨S4194304, .f32⟩
  | .hbm, ⟨9, _⟩ => ⟨S4194304x1, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S4194304, .f32⟩
  | .hbm, ⟨14, _⟩ => ⟨S4194304, .f32⟩
  | .hbm, ⟨15, _⟩ => ⟨S4194304, .f32⟩
  | .hbm, ⟨16, _⟩ => ⟨S4194304, .f32⟩
  | .hbm, ⟨17, _⟩ => ⟨S4194304, .f32⟩
  | .hbm, ⟨18, _⟩ => ⟨S4194304, .f32⟩
  | .hbm, ⟨19, _⟩ => ⟨S4194304, .f32⟩
  | .hbm, ⟨20, _⟩ => ⟨S4194304, .f32⟩
  | .hbm, ⟨21, _⟩ => ⟨S4194304, .f32⟩
  | .hbm, ⟨22, _⟩ => ⟨S4194304x1, .f32⟩
  | .hbm, ⟨23, _⟩ => ⟨S4194304x1, .f32⟩
  | .hbm, ⟨24, _⟩ => ⟨S4194304x1, .f32⟩
  | .hbm, ⟨25, _⟩ => ⟨S4194304x1, .f32⟩
  | .hbm, ⟨26, _⟩ => ⟨S4194304x1, .f32⟩
  | .hbm, ⟨27, _⟩ => ⟨S4194304x1, .f32⟩
  | .hbm, ⟨28, _⟩ => ⟨S4194304x1, .f32⟩
  | .hbm, ⟨29, _⟩ => ⟨S4194304x1, .f32⟩
  | .hbm, ⟨30, _⟩ => ⟨S4194304x1, .f32⟩
  | .hbm, ⟨31, _⟩ => ⟨S4194304x1, .f32⟩
  | .hbm, ⟨32, _⟩ => ⟨S4194304x1, .f32⟩
  | .hbm, ⟨33, _⟩ => ⟨S4194304x1, .f32⟩
  | .hbm, ⟨34, _⟩ => ⟨S4194304x12, .f32⟩
  | .hbm, ⟨35, _⟩ => ⟨S_, .f32⟩
  | .hbm, ⟨36, _⟩ => ⟨S12, .f32⟩
  | .hbm, ⟨37, _⟩ => ⟨S12, .f32⟩
  | .hbm, ⟨38, _⟩ => ⟨S1x12, .f32⟩
  | .hbm, ⟨39, _⟩ => ⟨S4194304x12, .f32⟩
  | .hbm, ⟨40, _⟩ => ⟨S4194304x12, .f32⟩
  | .hbm, ⟨41, _⟩ => ⟨S12x5, .f32⟩
  | .hbm, ⟨42, _⟩ => ⟨S4194304x5, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst_0 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]

class Facts₀ : Prop where
  slices_S4194304x5_S4194304x1_0_0 : S4194304x5.Slices ![0, 0] S4194304x1
  shapeCasts_S4194304x1_S4194304 : S4194304x1.ShapeCasts S4194304
  slices_S4194304x5_S4194304x1_0_1 : S4194304x5.Slices ![0, 1] S4194304x1
  slices_S4194304x5_S4194304x1_0_2 : S4194304x5.Slices ![0, 2] S4194304x1
  slices_S4194304x5_S4194304x1_0_3 : S4194304x5.Slices ![0, 3] S4194304x1
  slices_S4194304x5_S4194304x1_0_4 : S4194304x5.Slices ![0, 4] S4194304x1
  bcast_S4194304_S4194304x1_0 : S4194304.BroadcastsInDim S4194304x1 (![0] : Fin 1 → Fin S4194304x1.rank)
  concatenates_S4194304x1_S4194304x1_S4194304x1_S4194304x1_S4194304x1_S4194304x1_S4194304x1_S4194304x1_S4194304x1_S4194304x1_S4194304x1_S4194304x1_S4194304x12_d1 : Shape.Concatenates [S4194304x1, S4194304x1, S4194304x1, S4194304x1, S4194304x1, S4194304x1, S4194304x1, S4194304x1, S4194304x1, S4194304x1, S4194304x1, S4194304x1] S4194304x12 1
  bcast_S_S12 : S_.BroadcastsInDim S12 (![] : Fin 0 → Fin S12.rank)
  bcast_S12_S1x12_1 : S12.BroadcastsInDim S1x12 (![1] : Fin 1 → Fin S1x12.rank)
  bcast_S1x12_S4194304x12_0_1 : S1x12.BroadcastsInDim S4194304x12 (![0, 1] : Fin 2 → Fin S4194304x12.rank)
  transposes_S5x12_S12x5_1_0 : S5x12.Transposes [1, 0] S12x5
  dot_S4194304x12_S12x5_S4194304x5_1_0_0_1_n_n_wf : DotDims.WF S4194304x12 S12x5 S4194304x5 [1] [0] [0] [1] [] []

variable [Facts₀]

def dot_S4194304x12_S12x5_S4194304x5_1_0_0_1_n_n : DotDims S4194304x12 S12x5 S4194304x5 where
  lhsContracting := [1]
  rhsContracting := [0]
  lhsNonContracting := [0]
  rhsNonContracting := [1]
  lhsBatch := []
  rhsBatch := []
  wf := dot_S4194304x12_S12x5_S4194304x5_1_0_0_1_n_n_wf

class Facts : Prop extends Facts₀ where

variable [Facts]
-- ==== Proof.Spec.lean ====
/-
  The mathematics both programs compute, stated once and over no program.

  A row of the input holds five numbers `z 0 … z 4`. From them twelve products are formed (`terms`), each is
  scaled by its own channel factor `s k`, and the scaled products are combined by a fixed 12 × 5 table `w` of
  small integers: entry `q` of the row's result is `∑ k, terms z k · s k · w k q` (`rate`). The whole result
  array applies this to every row (`G`). All arithmetic is on the extended reals; only commutativity of the
  product is ever used to bring the two programs' texts to this form.

  Also here: the layout operations both texts use to build the `[M, 12]` array of products, each read at one
  index, for any number of rows `M`.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Flux

open Idealize.ShloMosaic Idealize.ShloMosaic.ValueIdx

/-- The twelve products of a row's five entries, in the order both programs stack them. -/
def terms (z : Fin 5 → EReal) : Fin 12 → EReal :=
  ![z 0 * z 0, z 1, z 0 * z 3, z 2, z 3 * z 3, z 4, z 1 * z 4, z 2 * z 2, z 1 * z 3, z 2 * z 0, z 4 * z 0, z 2 * z 3]

/-- One entry of a row's result: the scaled products combined by column `q` of the table. -/
def rate (z : Fin 5 → EReal) (s : Fin 12 → EReal) (w : Fin 12 → Fin 5 → EReal) (q : Fin 5) : EReal :=
  ∑ k : Fin 12, terms z k * s k * w k q

/-- The result array: `rate` of each row of `x`, the channel factors `s` and the table `w` given as arrays. -/
def G {M : Nat} (x : (⟨2, ![M, 5]⟩ : Shape).Idx → EReal) (s : (⟨1, ![12]⟩ : Shape).Idx → EReal)
    (w : (⟨2, ![12, 5]⟩ : Shape).Idx → EReal) : (⟨2, ![M, 5]⟩ : Shape).Idx → EReal :=
  fun i => rate (fun a => x (ix2 (i 0) a)) (fun k => s (ix1 k)) (fun k q => w (ix2 k q)) (i 1)

theorem G_apply {M : Nat} (x : (⟨2, ![M, 5]⟩ : Shape).Idx → EReal) (s : (⟨1, ![12]⟩ : Shape).Idx → EReal)
    (w : (⟨2, ![12, 5]⟩ : Shape).Idx → EReal) (r : Fin M) (q : Fin 5) :
    G x s w (ix2 r q) = rate (fun a => x (ix2 r a)) (fun k => s (ix1 k)) (fun k q => w (ix2 k q)) q := rfl

section Layout

variable {α : Type} {M : Nat}

/-- Column `a` of an `[M, 5]` array, cut out as `[M, 1]` and flattened to `[M]`, reads the array at `(r, a)`. -/
theorem column_apply (x : (⟨2, ![M, 5]⟩ : Shape).Idx → α) (o : Nat)
    (hs : (⟨2, ![M, 5]⟩ : Shape).Slices ![0, o] ⟨2, ![M, 1]⟩)
    (hc : (⟨2, ![M, 1]⟩ : Shape).ShapeCasts ⟨1, ![M]⟩) (r : Fin M) (a : Fin 5) (ha : a.val = o) :
    shapeCast ⟨1, ![M]⟩ (extractStridedSlice ⟨2, ![M, 1]⟩ ![0, o] x hs) hc (ix1 r) = x (ix2 r a) := by
  rw [shapeCast_apply _ hc (ix1 r) (ix2 r (0 : Fin 1)) (by
    rw [Shape.rowMajor_val_two, Shape.rowMajor_val_one]
    show r.val * 1 + 0 = r.val
    omega)]
  exact slice2_axis1_apply o x hs r 0 a (by simp [ha])

/-- An `[M]` vector viewed as one column `[M, 1]` reads the vector at the row. -/
theorem asColumn_apply (v : (⟨1, ![M]⟩ : Shape).Idx → α) (h : (⟨1, ![M]⟩ : Shape).ShapeCasts ⟨2, ![M, 1]⟩)
    (r : Fin M) (u : Fin 1) : shapeCast ⟨2, ![M, 1]⟩ v h (ix2 r u) = v (ix1 r) :=
  shapeCast_apply v h _ _ (by
    have hu : u.val = 0 := by omega
    rw [Shape.rowMajor_val_two, Shape.rowMajor_val_one]
    show r.val = r.val * 1 + u.val
    omega)

/-- The same column made by a broadcast along a new unit axis. -/
theorem bcastColumn_apply (v : (⟨1, ![M]⟩ : Shape).Idx → α)
    (h : (⟨1, ![M]⟩ : Shape).BroadcastsInDim ⟨2, ![M, 1]⟩ (![0] : Fin 1 → Fin 2)) (r : Fin M) (u : Fin 1) :
    broadcastInDim ⟨2, ![M, 1]⟩ (![0] : Fin 1 → Fin 2) h v (ix2 r u) = v (ix1 r) := by
  refine broadcastInDim_apply _ h v (ix2 r u) (ix1 r) fun ax => ?_
  match ax with
  | ⟨0, _⟩ =>
    show r.val = if M = 1 then 0 else r.val
    split
    · have := r.isLt; omega
    · rfl

/-- A `[12]` vector laid along the columns of an `[M, 12]` array (through `[1, 12]`) reads the vector at the column. -/
theorem alongRows_apply (v : (⟨1, ![12]⟩ : Shape).Idx → α)
    (h1 : (⟨1, ![12]⟩ : Shape).ShapeCasts ⟨2, ![1, 12]⟩) (h2 : (⟨2, ![1, 12]⟩ : Shape).Broadcasts ⟨2, ![M, 12]⟩)
    (r : Fin M) (k : Fin 12) :
    broadcastTo ⟨2, ![M, 12]⟩ (shapeCast ⟨2, ![1, 12]⟩ v h1) h2 (ix2 r k) = v (ix1 k) := by
  rw [broadcastTo_1b_ab_apply, shapeCast_a_1a_apply]

/-- The same by two broadcasts naming the axes kept. -/
theorem bcastAlongRows_apply (v : (⟨1, ![12]⟩ : Shape).Idx → α)
    (h1 : (⟨1, ![12]⟩ : Shape).BroadcastsInDim ⟨2, ![1, 12]⟩ (![1] : Fin 1 → Fin 2))
    (h2 : (⟨2, ![1, 12]⟩ : Shape).BroadcastsInDim ⟨2, ![M, 12]⟩ (![0, 1] : Fin 2 → Fin 2)) (r : Fin M) (k : Fin 12) :
    broadcastInDim ⟨2, ![M, 12]⟩ (![0, 1] : Fin 2 → Fin 2) h2
      (broadcastInDim ⟨2, ![1, 12]⟩ (![1] : Fin 1 → Fin 2) h1 v) (ix2 r k) = v (ix1 k) := by
  rw [broadcastInDim_apply _ h2 _ (ix2 r k) (ix2 (0 : Fin 1) k) (fun ax => by
    match ax with
    | ⟨0, _⟩ => rfl
    | ⟨1, _⟩ => rfl)]
  exact broadcastInDim_apply _ h1 v (ix2 (0 : Fin 1) k) (ix1 k) (fun ax => by
    match ax with
    | ⟨0, _⟩ => rfl)

/-- Twelve `[M, 1]` columns set side by side read, at `(r, k)`, column `k` at row `r`. -/
theorem columns12_apply (f0 f1 f2 f3 f4 f5 f6 f7 f8 f9 f10 f11 : (⟨2, ![M, 1]⟩ : Shape).Idx → α)
    (h : Shape.Concatenates [(⟨2, ![M, 1]⟩ : Shape), ⟨2, ![M, 1]⟩, ⟨2, ![M, 1]⟩, ⟨2, ![M, 1]⟩, ⟨2, ![M, 1]⟩, ⟨2, ![M, 1]⟩,
      ⟨2, ![M, 1]⟩, ⟨2, ![M, 1]⟩, ⟨2, ![M, 1]⟩, ⟨2, ![M, 1]⟩, ⟨2, ![M, 1]⟩, ⟨2, ![M, 1]⟩] ⟨2, ![M, 12]⟩ 1)
    (r : Fin M) (k : Fin 12) :
    concatenate ⟨2, ![M, 12]⟩ 1 [⟨⟨2, ![M, 1]⟩, f0⟩, ⟨⟨2, ![M, 1]⟩, f1⟩, ⟨⟨2, ![M, 1]⟩, f2⟩, ⟨⟨2, ![M, 1]⟩, f3⟩,
        ⟨⟨2, ![M, 1]⟩, f4⟩, ⟨⟨2, ![M, 1]⟩, f5⟩, ⟨⟨2, ![M, 1]⟩, f6⟩, ⟨⟨2, ![M, 1]⟩, f7⟩, ⟨⟨2, ![M, 1]⟩, f8⟩,
        ⟨⟨2, ![M, 1]⟩, f9⟩, ⟨⟨2, ![M, 1]⟩, f10⟩, ⟨⟨2, ![M, 1]⟩, f11⟩] h (ix2 r k)
      = (![f0, f1, f2, f3, f4, f5, f6, f7, f8, f9, f10, f11] : Fin 12 → (⟨2, ![M, 1]⟩ : Shape).Idx → α) k (ix2 r (0 : Fin 1)) :=
  concatenate_ofFn_unit_apply (t := ⟨2, ![M, 12]⟩) (s₁ := ⟨2, ![M, 1]⟩) 1
    (![f0, f1, f2, f3, f4, f5, f6, f7, f8, f9, f10, f11] : Fin 12 → (⟨2, ![M, 1]⟩ : Shape).Idx → α) h rfl rfl (ix2 r k) k rfl
    (ix2 r (0 : Fin 1)) (fun b hb => by
      match b with
      | ⟨0, _⟩ => rfl
      | ⟨1, _⟩ => exact absurd rfl hb)

/-- So twelve columns whose row-`r` entries are `g 0 … g 11` read `g k` at `(r, k)`. -/
theorem columns12_eq (f0 f1 f2 f3 f4 f5 f6 f7 f8 f9 f10 f11 : (⟨2, ![M, 1]⟩ : Shape).Idx → α)
    (h : Shape.Concatenates [(⟨2, ![M, 1]⟩ : Shape), ⟨2, ![M, 1]⟩, ⟨2, ![M, 1]⟩, ⟨2, ![M, 1]⟩, ⟨2, ![M, 1]⟩, ⟨2, ![M, 1]⟩,
      ⟨2, ![M, 1]⟩, ⟨2, ![M, 1]⟩, ⟨2, ![M, 1]⟩, ⟨2, ![M, 1]⟩, ⟨2, ![M, 1]⟩, ⟨2, ![M, 1]⟩] ⟨2, ![M, 12]⟩ 1)
    (r : Fin M) (g : Fin 12 → α)
    (h0 : f0 (ix2 r (0 : Fin 1)) = g 0) (h1 : f1 (ix2 r (0 : Fin 1)) = g 1) (h2 : f2 (ix2 r (0 : Fin 1)) = g 2)
    (h3 : f3 (ix2 r (0 : Fin 1)) = g 3) (h4 : f4 (ix2 r (0 : Fin 1)) = g 4) (h5 : f5 (ix2 r (0 : Fin 1)) = g 5)
    (h6 : f6 (ix2 r (0 : Fin 1)) = g 6) (h7 : f7 (ix2 r (0 : Fin 1)) = g 7) (h8 : f8 (ix2 r (0 : Fin 1)) = g 8)
    (h9 : f9 (ix2 r (0 : Fin 1)) = g 9) (h10 : f10 (ix2 r (0 : Fin 1)) = g 10) (h11 : f11 (ix2 r (0 : Fin 1)) = g 11)
    (k : Fin 12) :
    concatenate ⟨2, ![M, 12]⟩ 1 [⟨⟨2, ![M, 1]⟩, f0⟩, ⟨⟨2, ![M, 1]⟩, f1⟩, ⟨⟨2, ![M, 1]⟩, f2⟩, ⟨⟨2, ![M, 1]⟩, f3⟩,
        ⟨⟨2, ![M, 1]⟩, f4⟩, ⟨⟨2, ![M, 1]⟩, f5⟩, ⟨⟨2, ![M, 1]⟩, f6⟩, ⟨⟨2, ![M, 1]⟩, f7⟩, ⟨⟨2, ![M, 1]⟩, f8⟩,
        ⟨⟨2, ![M, 1]⟩, f9⟩, ⟨⟨2, ![M, 1]⟩, f10⟩, ⟨⟨2, ![M, 1]⟩, f11⟩] h (ix2 r k) = g k := by
  rw [columns12_apply]
  fin_cases k
  · exact h0
  · exact h1
  · exact h2
  · exact h3
  · exact h4
  · exact h5
  · exact h6
  · exact h7
  · exact h8
  · exact h9
  · exact h10
  · exact h11

end Layout

end Cert.Flux

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.KernelRow.lean ====
/-
  One entry of what the kernel body stores, at the ideal values.

  The body loads a block of 4096 rows of `x`, the twelve channel factors and the 12 × 5 table; it cuts the five
  columns out of the block, forms the twelve products, sets them side by side as a `[4096, 12]` array,
  multiplies row-wise by the factors, narrows both operands (the identity on ideal values) and contracts the
  twelve columns with the table into a zero accumulator. So entry `(p, q)` of the stored block is `rate` of
  row `p` of the loaded block.
-/
import proofs.«147797_j34102040330828_1_alg».proof.Proof.Gen.KernelIdeal.Skeleton
import proofs.«147797_j34102040330828_1_alg».proof.Proof.Spec
import proofs.«147797_j34102040330828_1_alg».proof.Proof.LibPlainDot

noncomputable section

open scoped BigOperators

namespace Cert.KernelIdeal.Hand

open Cert.KernelIdeal Cert.KernelIdeal.Gen Idealize.ShloMosaic Idealize.ShloMosaic.ValueIdx Cert.Flux

/-- Entry `(p, q)` of the stored block is `rate` of row `p` of the loaded block, the loaded factors and the loaded
    table. -/
theorem pay_apply (x0 : Vec Ideal S4096x5 .f32) (x1 : Vec Ideal S12 .f32) (x2 : Vec Ideal S12x5 .f32)
    (p : Fin 4096) (q : Fin 5) :
    k0_pay1 (F := Ideal) x0 x1 x2 (ix2 p q)
      = rate (fun a => x0 (ix2 p a)) (fun k => x1 (ix1 k)) (fun k q => x2 (ix2 k q)) q := by
  unfold k0_pay1
  refine (PlainDot.matmul_zero_apply dot_S4096x12_S12x5_S4096x5_1_0_0_1_n_n rfl rfl rfl rfl rfl rfl rfl rfl
    none _ _ p q).trans ?_
  unfold rate
  refine Finset.sum_congr rfl fun k _ => ?_
  beta_reduce
  rw [truncf_apply, truncf_apply, mulf_apply, shapeCast_self, shapeCast_self, alongRows_apply]
  refine congrArg (fun t => t * x1 (ix1 k) * x2 (ix2 k q)) ?_
  refine columns12_eq _ _ _ _ _ _ _ _ _ _ _ _ _ p (terms fun a => x0 (ix2 p a)) ?_ ?_ ?_ ?_ ?_ ?_ ?_ ?_ ?_ ?_ ?_ ?_ k
  · rw [asColumn_apply, mulf_apply, column_apply x0 0 _ _ p 0 rfl]; rfl
  · rw [asColumn_apply, column_apply x0 1 _ _ p 1 rfl]; rfl
  · rw [asColumn_apply, mulf_apply, column_apply x0 0 _ _ p 0 rfl, column_apply x0 3 _ _ p 3 rfl]; rfl
  · rw [asColumn_apply, column_apply x0 2 _ _ p 2 rfl]; rfl
  · rw [asColumn_apply, mulf_apply, column_apply x0 3 _ _ p 3 rfl]; rfl
  · rw [asColumn_apply, column_apply x0 4 _ _ p 4 rfl]; rfl
  · rw [asColumn_apply, mulf_apply, column_apply x0 1 _ _ p 1 rfl, column_apply x0 4 _ _ p 4 rfl]; rfl
  · rw [asColumn_apply, mulf_apply, column_apply x0 2 _ _ p 2 rfl]; rfl
  · rw [asColumn_apply, mulf_apply, column_apply x0 1 _ _ p 1 rfl, column_apply x0 3 _ _ p 3 rfl]; rfl
  · rw [asColumn_apply, mulf_apply, column_apply x0 2 _ _ p 2 rfl, column_apply x0 0 _ _ p 0 rfl]; rfl
  · rw [asColumn_apply, mulf_apply, column_apply x0 4 _ _ p 4 rfl, column_apply x0 0 _ _ p 0 rfl]; rfl
  · rw [asColumn_apply, mulf_apply, column_apply x0 2 _ _ p 2 rfl, column_apply x0 3 _ _ p 3 rfl]; rfl

end Cert.KernelIdeal.Hand

end
-- ==== Proof.KernelArray.lean ====
/-
  From blocks to the array: what the kernel program leaves in its result buffer, at the ideal values.

  The grid has 1024 points. Point `t` is handed rows `4096 t … 4096 t + 4095` of `x` (all five columns), the
  whole vector of channel factors and the whole table, and writes back rows `4096 t … 4096 t + 4095` of the
  result. The factors and the table are what the host operations before the region computed: ten to the power
  of each weight, and the transposed table of small integers. Entry `(p, q)` of the block a point writes is
  `rate` of row `p` of its block of `x`, that is of row `4096 t + p` of `x`; the 1024 blocks tile the result,
  so the result array ends at `G x (scale w) table`.
-/
import proofs.«147797_j34102040330828_1_alg».proof.Proof.Gen.KernelIdeal.Value
import proofs.«147797_j34102040330828_1_alg».proof.Proof.KernelRow
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Idealize.ShloMosaic.StableHlo Cert.Flux

variable (m : (ℓ : Loc nD τ sig) → Buf (Elt Ideal) ℓ) (ρ : Dev nD → PrngReg)

/-! ## What the region finds -/

/-- Ten to the power of each weight. -/
def scale (w : FVec Ideal S12 .f32) : FVec Ideal S12 .f32 :=
  Host.powf (broadcastInDim S12 ![] bcast_S_S12 (constant (F := Ideal) S_ .f32 0x41200000#32)) w

/-- The table of small integers, transposed to `[12, 5]`. -/
def table : FVec Ideal S12x5 .f32 :=
  transpose S12x5 [1, 0] (fun i => FloatOps.ofBits (F := Ideal) .f32 (lit0 (S5x12.rowMajor i))) transposes_S5x12_S12x5_1_0

/-- The three arrays the region's input windows stage, at their literal types. -/
abbrev xArr (c : Dev nD) : FVec Ideal S4194304x5 .f32 := V m c main_arg0
abbrev sArr (c : Dev nD) : FVec Ideal S12 .f32 := V m c main_v1
abbrev wArr (c : Dev nD) : FVec Ideal S12x5 .f32 := V m c main_v2

theorem xArr_eq (c : Dev nD) : xArr m c = m ((c : Thread nD τ).loc main_arg0) := V_main_arg0 m c

/-- The factors' array is the host's power of ten of the weights as launched. -/
theorem sArr_eq (c : Dev nD) : sArr m c = scale (m ((c : Thread nD τ).loc main_arg1)) := by
  show StableHlo.after hostOps0 (fun b => m (c, b)) (Proc.devRef .tc main_v1) = _
  after_results
  first | done | rfl

/-- The table's array is the literal table transposed. -/
theorem wArr_eq (c : Dev nD) : wArr m c = table := by
  show StableHlo.after hostOps0 (fun b => m (c, b)) (Proc.devRef .tc main_v2) = _
  after_results
  first | done | rfl

/-! ## One block -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the block of `x` and the block of the result move with the point along
    the rows; the factors' and the table's one block stays. -/
theorem idx_facts : ∀ t : Fin cfg0.N, win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = t.val ∧ win0_3.index t (1 : Fin 2) = 0)

/-- An entry of the stored block against an entry of `G`, the loaded blocks given entry by entry. -/
theorem block_entry (X : FVec Ideal S4194304x5 .f32) (s : FVec Ideal S12 .f32) (w : FVec Ideal S12x5 .f32)
    (x0 : Vec Ideal S4096x5 .f32) (x1 : Vec Ideal S12 .f32) (x2 : Vec Ideal S12x5 .f32)
    (j : S4096x5.Idx) (i : S4194304x5.Idx) (p : Fin 4096) (q : Fin 5) (r : Fin 4194304)
    (hj0 : (j 0).val = p.val) (hj1 : (j 1).val = q.val) (hi0 : (i 0).val = r.val) (hi1 : (i 1).val = q.val)
    (hrow : ∀ a : Fin 5, x0 (ix2 p a) = X (ix2 r a)) (h1 : ∀ k : Fin 12, x1 (ix1 k) = s (ix1 k))
    (h2 : ∀ (k : Fin 12) (b : Fin 5), x2 (ix2 k b) = w (ix2 k b)) :
    k0_pay1 (F := Ideal) x0 x1 x2 j = G (M := 4194304) X s w i := by
  have ej : j = ix2 p q := by
    funext a; apply Fin.ext
    match a with
    | ⟨0, _⟩ => exact hj0
    | ⟨1, _⟩ => exact hj1
  have ei : i = ix2 r q := by
    funext a; apply Fin.ext
    match a with
    | ⟨0, _⟩ => exact hi0
    | ⟨1, _⟩ => exact hi1
  rw [ej, ei, pay_apply, G_apply]
  simp only [hrow, h1, h2]

/-- WHAT POINT `t` WRITES BACK is block `t` of `G` of the three arrays the region finds. -/
theorem flushed_eq (c : Dev nD) (t : Fin cfg0.N) :
    (dats m 0 c).flushed 3 t
      = ((cfg0.win 3).blk t).view.read (Elt Ideal) (G (M := 4194304) (xArr m c) (sArr m c) (wArr m c)) := by
  rw [Value.flushed3]
  unfold out0_3
  rw [View.canon_unit_zero hz2]
  simp only [View.ld_unit_zero (S := S4096x5) hz2, View.ld_unit_zero (S := S12) hz1, View.ld_unit_zero (S := S12x5) hz2]
  obtain ⟨e00, e01, e10, e20, e21, e30, e31⟩ := idx_facts t
  have hN : cfg0.N = 1024 := N_0
  funext j
  have hj0 : (j 0).val < 4096 := (j 0).isLt
  have hj1 : (j 1).val < 5 := (j 1).isLt
  have ht : t.val < 1024 := hN ▸ t.isLt
  show k0_pay1 (F := Ideal) (iblk m c 0 t) (iblk m c 1 t) (iblk m c 2 t) j
    = G (M := 4194304) (xArr m c) (sArr m c) (wArr m c) (((cfg0.win 3).blk t).view.emb j)
  refine block_entry (xArr m c) (sArr m c) (wArr m c) (iblk m c 0 t) (iblk m c 1 t) (iblk m c 2 t) j _
    ⟨(j 0).val, hj0⟩ ⟨(j 1).val, hj1⟩ ⟨t.val * 4096 + (j 0).val, by omega⟩ rfl rfl ?_ ?_ ?_ ?_ ?_
  · show win0_3.index t (0 : Fin 2) * 4096 + 1 * (j 0).val = t.val * 4096 + (j 0).val
    rw [e30]; omega
  · show win0_3.index t (1 : Fin 2) * 5 + 1 * (j 1).val = (j 1).val
    rw [e31]; omega
  · intro a
    show V m c main_arg0 (((cfg0.win 0).blk t).view.emb (ix2 ⟨(j 0).val, hj0⟩ a)) = V m c main_arg0 (ix2 ⟨t.val * 4096 + (j 0).val, by omega⟩ a)
    refine congrArg (V m c main_arg0) (funext fun ax => Fin.ext ?_)
    match ax with
    | ⟨0, _⟩ =>
      show win0_0.index t (0 : Fin 2) * 4096 + 1 * (j 0).val = t.val * 4096 + (j 0).val
      rw [e00]; omega
    | ⟨1, _⟩ =>
      show win0_0.index t (1 : Fin 2) * 5 + 1 * a.val = a.val
      rw [e01]; omega
  · intro k
    show V m c main_v1 (((cfg0.win 1).blk t).view.emb (ix1 k)) = V m c main_v1 (ix1 k)
    refine congrArg (V m c main_v1) (funext fun ax => Fin.ext ?_)
    match ax with
    | ⟨0, _⟩ =>
      show win0_1.index t (0 : Fin 1) * 12 + 1 * k.val = k.val
      rw [e10]; omega
  · intro k b
    show V m c main_v2 (((cfg0.win 2).blk t).view.emb (ix2 k b)) = V m c main_v2 (ix2 k b)
    refine congrArg (V m c main_v2) (funext fun ax => Fin.ext ?_)
    match ax with
    | ⟨0, _⟩ =>
      show win0_2.index t (0 : Fin 2) * 12 + 1 * k.val = k.val
      rw [e20]; omega
    | ⟨1, _⟩ =>
      show win0_2.index t (1 : Fin 2) * 5 + 1 * b.val = b.val
      rw [e21]; omega

/-! ## The array -/

/-- An index of the result array is in point `t`'s block iff each coordinate is in the block's range on its axis. -/
theorem mem_blk (t : Fin cfg0.N) (i : S4194304x5.Idx) :
    i ∈ ((cfg0.win 3).blk t).view.set ↔ ∀ a : Fin 2, win0_3.index t a * S4096x5.size a ≤ (i a).val ∧ (i a).val < win0_3.index t a * S4096x5.size a + S4096x5.size a := by
  show i ∈ ((View.whole main_v3).slice (win0_3.rect t)).set ↔ _
  rw [View.set_slice_whole, Rect.mem_set_unit]
  exact Iff.rfl

/-- Every row of the result is in the block of the point its number over 4096 names. -/
theorem covered (i : S4194304x5.Idx) :
    ∃ t : Fin cfg0.N, (cfg0.win 3).flush t = true ∧ i ∈ ((cfg0.win 3).blk t).view.set := by
  have hN : cfg0.N = 1024 := N_0
  have hi0 : (i 0).val < 4194304 := (i 0).isLt
  have hi1 : (i 1).val < 5 := (i 1).isLt
  let t : Fin cfg0.N := ⟨(i 0).val / 4096, by rw [hN]; omega⟩
  obtain ⟨e00, e01, e10, e20, e21, e30, e31⟩ := idx_facts t
  have htv : t.val = (i 0).val / 4096 := rfl
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    rw [e30, htv]; omega
  | ⟨1, _⟩ =>
    show win0_3.index t (1 : Fin 2) * 5 ≤ (i 1).val ∧ (i 1).val < win0_3.index t (1 : Fin 2) * 5 + 5
    rw [e31]; omega

/-- THE ARRAY after the run: `G` of `x` as launched, the powers of ten of the weights as launched, and the table. -/
theorem final (c : Dev nD) : (dats m 0 c).arrAt 3 cfg0.N
    = G (M := 4194304) (m ((c : Thread nD τ).loc main_arg0)) (scale (m ((c : Thread nD τ).loc main_arg1))) table := by
  rw [(dats m 0 c).arrAt_eq_of_cover 3 (G (M := 4194304) (xArr m c) (sArr m c) (wArr m c)) (fun t _ => flushed_eq m c t) covered,
    xArr_eq, sArr_eq, wArr_eq]

/-- The kernel program's run, read: the result array at `G`, the arguments unchanged. -/
theorem run : θ_run defs (onTc (τ := τ) (main (F := Ideal))) ⟨m, fun _ => 0, ρ⟩ fun r => ∀ c : Dev nD,
      r.2.mem ((c : Thread nD τ).loc main_v3)
        = G (M := 4194304) (m ((c : Thread nD τ).loc main_arg0)) (scale (m ((c : Thread nD τ).loc main_arg1))) table
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Hand

end
-- ==== Proof.LibNary12.lean ====
/-
  A host operation with twelve operands (a `stablehlo.concatenate` of twelve arrays), its result stated with each
  operand's contents at its own reference, so that a straight line of host operations can be read back to a term
  of the argument arrays one operation at a time; and the tactic that does that reading for a line holding such
  an operation.
-/
import Idealize.ShloMosaic.Lib.StableHlo.Run

namespace Idealize.ShloMosaic.StableHlo

variable {τ : Topo} {sig : RefSig} {Val : EltTy → Type}
variable {x0 x1 x2 x3 x4 x5 x6 x7 x8 x9 x10 x11 y : Ref sig .tc}

/-- After a twelve-operand operation its result buffer holds the operation's function of the twelve operands'
    contents, operand `k` read at the `k`-th reference. -/
theorem nary12_result
    (f : ((k : Fin 12) → ((![x0, x1, x2, x3, x4, x5, x6, x7, x8, x9, x10, x11] : Fin 12 → Ref sig .tc) k).ty.Contents Val) → y.ty.Contents Val)
    (hxs hy) (F : Valuation τ sig Val) :
    (nary (τ := τ) ![x0, x1, x2, x3, x4, x5, x6, x7, x8, x9, x10, x11] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (fun i => i.elim0))))))))))))) := by
  rw [nary_result]; congr 1; funext k; fin_cases k <;> rfl

/-- The same, in the form a single simplifier pass over a long line uses. -/
theorem nary12_result'
    (f : ((k : Fin 12) → ((![x0, x1, x2, x3, x4, x5, x6, x7, x8, x9, x10, x11] : Fin 12 → Ref sig .tc) k).ty.Contents Val) → y.ty.Contents Val)
    (hxs hy) (F : Valuation τ sig Val) :
    (nary (τ := τ) ![x0, x1, x2, x3, x4, x5, x6, x7, x8, x9, x10, x11] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (fun i => i.elim0))))))))))))) :=
  nary12_result f hxs hy F

/-- `after_results_simp` for a line that holds a twelve-operand operation: one simplifier pass, each shared
    intermediate visited once. -/
macro "after_results12_simp" : tactic =>
  `(tactic| (simp (disch := decide) only [after_cons, after_nil,
      nullary_result', unary_result', binary_result', reshape_result', nary12_result',
      nullary_result_ne', unary_result_ne', binary_result_ne', reshape_result_ne', nary_result_ne']))

/-- `after_results` for a line that holds a twelve-operand operation: each operation's result at its own result
    buffer is its function's value, and at any other reference what was there. -/
macro "after_results12" : tactic =>
  `(tactic| (simp only [after_cons, after_nil]
             repeat (first
               | rw [nullary_result] | rw [unary_result] | rw [binary_result]
               | rw [reshape_result] | rw [nary12_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

end Idealize.ShloMosaic.StableHlo
-- ==== Proof.RefRun.lean ====
/-
  The reference program's run, read back.

  @main of the reference is a straight line of forty-one host operations: the table of small integers, the five
  columns of `x` cut out and flattened, the nine products of two columns, the twelve terms each made a column
  again and set side by side as an `[M, 12]` array, ten to the power of each weight laid along that array's
  rows, the elementwise product of the two, and the contraction of its twelve columns with the transposed
  table. Every weakly fair execution of that line terminates, leaves the two argument arrays as they were, and
  leaves the result buffer at `out x w`: those operations composed, as one term of the two argument arrays.
-/
import proofs.«147797_j34102040330828_1_alg».proof.Proof.Gen.ReferenceIdeal
import proofs.«147797_j34102040330828_1_alg».proof.Proof.LibNary12
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the arguments -/

/-- Column `0` of `x`, as a vector over the rows. -/
def z0 (x : FVec F S4194304x5 .f32) : FVec F S4194304 .f32 :=
  shapeCast S4194304 (extractStridedSlice S4194304x1 ![0, 0] x slices_S4194304x5_S4194304x1_0_0) shapeCasts_S4194304x1_S4194304
/-- Column `1`. -/
def z1 (x : FVec F S4194304x5 .f32) : FVec F S4194304 .f32 :=
  shapeCast S4194304 (extractStridedSlice S4194304x1 ![0, 1] x slices_S4194304x5_S4194304x1_0_1) shapeCasts_S4194304x1_S4194304
/-- Column `2`. -/
def z2 (x : FVec F S4194304x5 .f32) : FVec F S4194304 .f32 :=
  shapeCast S4194304 (extractStridedSlice S4194304x1 ![0, 2] x slices_S4194304x5_S4194304x1_0_2) shapeCasts_S4194304x1_S4194304
/-- Column `3`. -/
def z3 (x : FVec F S4194304x5 .f32) : FVec F S4194304 .f32 :=
  shapeCast S4194304 (extractStridedSlice S4194304x1 ![0, 3] x slices_S4194304x5_S4194304x1_0_3) shapeCasts_S4194304x1_S4194304
/-- Column `4`. -/
def z4 (x : FVec F S4194304x5 .f32) : FVec F S4194304 .f32 :=
  shapeCast S4194304 (extractStridedSlice S4194304x1 ![0, 4] x slices_S4194304x5_S4194304x1_0_4) shapeCasts_S4194304x1_S4194304

/-- A vector over the rows as one column. -/
def col (v : FVec F S4194304 .f32) : FVec F S4194304x1 .f32 :=
  broadcastInDim S4194304x1 ![0] bcast_S4194304_S4194304x1_0 v

/-- The twelve terms of every row, side by side. -/
def products (x : FVec F S4194304x5 .f32) : FVec F S4194304x12 .f32 :=
  concatenate S4194304x12 1
    [⟨S4194304x1, col (mulf (z0 x) (z0 x))⟩, ⟨S4194304x1, col (z1 x)⟩, ⟨S4194304x1, col (mulf (z0 x) (z3 x))⟩,
     ⟨S4194304x1, col (z2 x)⟩, ⟨S4194304x1, col (mulf (z3 x) (z3 x))⟩, ⟨S4194304x1, col (z4 x)⟩,
     ⟨S4194304x1, col (mulf (z1 x) (z4 x))⟩, ⟨S4194304x1, col (mulf (z2 x) (z2 x))⟩, ⟨S4194304x1, col (mulf (z1 x) (z3 x))⟩,
     ⟨S4194304x1, col (mulf (z2 x) (z0 x))⟩, ⟨S4194304x1, col (mulf (z4 x) (z0 x))⟩, ⟨S4194304x1, col (mulf (z2 x) (z3 x))⟩]
    concatenates_S4194304x1_S4194304x1_S4194304x1_S4194304x1_S4194304x1_S4194304x1_S4194304x1_S4194304x1_S4194304x1_S4194304x1_S4194304x1_S4194304x1_S4194304x12_d1

/-- Ten to the power of each weight. -/
def scale (w : FVec F S12 .f32) : FVec F S12 .f32 :=
  Host.powf (broadcastInDim S12 ![] bcast_S_S12 (constant S_ .f32 0x41200000#32)) w

/-- The scale laid along the rows of an `[M, 12]` array. -/
def scaleRows (w : FVec F S12 .f32) : FVec F S4194304x12 .f32 :=
  broadcastInDim S4194304x12 ![0, 1] bcast_S1x12_S4194304x12_0_1 (broadcastInDim S1x12 ![1] bcast_S12_S1x12_1 (scale w))

/-- The table of small integers, transposed to `[12, 5]`. -/
def table : FVec F S12x5 .f32 :=
  transpose S12x5 [1, 0] (fun i => FloatOps.ofBits .f32 (lit0 (S5x12.rowMajor i))) transposes_S5x12_S12x5_1_0

/-- What @main leaves in its result buffer, of the two argument arrays. -/
def out (x : FVec F S4194304x5 .f32) (w : FVec F S12 .f32) : FVec F S4194304x5 .f32 :=
  Host.dotGeneral dot_S4194304x12_S12x5_S4194304x5_1_0_0_1_n_n none (mulf (scaleRows w) (products x)) table

/-! ## The run -/

/-- @main's forty-one operations, in order. -/
abbrev ops : List (HloOp τ sig (Elt F)) :=
  [ nullary main_cst (fun i => FloatOps.ofBits .f32 (lit0 (S5x12.rowMajor i))),
    unary main_arg0 main_v0 ((extractStridedSlice S4194304x1 ![0, 0] · slices_S4194304x5_S4194304x1_0_0) : (⟨S4194304x5, .f32⟩ : BufTy).Contents (Elt F) → (⟨S4194304x1, .f32⟩ : BufTy).Contents (Elt F)),
    reshape main_v0 main_v1 rfl shapeCasts_S4194304x1_S4194304,
    unary main_arg0 main_v2 ((extractStridedSlice S4194304x1 ![0, 1] · slices_S4194304x5_S4194304x1_0_1) : (⟨S4194304x5, .f32⟩ : BufTy).Contents (Elt F) → (⟨S4194304x1, .f32⟩ : BufTy).Contents (Elt F)),
    reshape main_v2 main_v3 rfl shapeCasts_S4194304x1_S4194304,
    unary main_arg0 main_v4 ((extractStridedSlice S4194304x1 ![0, 2] · slices_S4194304x5_S4194304x1_0_2) : (⟨S4194304x5, .f32⟩ : BufTy).Contents (Elt F) → (⟨S4194304x1, .f32⟩ : BufTy).Contents (Elt F)),
    reshape main_v4 main_v5 rfl shapeCasts_S4194304x1_S4194304,
    unary main_arg0 main_v6 ((extractStridedSlice S4194304x1 ![0, 3] · slices_S4194304x5_S4194304x1_0_3) : (⟨S4194304x5, .f32⟩ : BufTy).Contents (Elt F) → (⟨S4194304x1, .f32⟩ : BufTy).Contents (Elt F)),
    reshape main_v6 main_v7 rfl shapeCasts_S4194304x1_S4194304,
    unary main_arg0 main_v8 ((extractStridedSlice S4194304x1 ![0, 4] · slices_S4194304x5_S4194304x1_0_4) : (⟨S4194304x5, .f32⟩ : BufTy).Contents (Elt F) → (⟨S4194304x1, .f32⟩ : BufTy).Contents (Elt F)),
    reshape main_v8 main_v9 rfl shapeCasts_S4194304x1_S4194304,
    binary main_v1 main_v1 main_v10 (mulf : (⟨S4194304, .f32⟩ : BufTy).Contents (Elt F) → (⟨S4194304, .f32⟩ : BufTy).Contents (Elt F) → (⟨S4194304, .f32⟩ : BufTy).Contents (Elt F)),
    binary main_v1 main_v7 main_v11 (mulf : (⟨S4194304, .f32⟩ : BufTy).Contents (Elt F) → (⟨S4194304, .f32⟩ : BufTy).Contents (Elt F) → (⟨S4194304, .f32⟩ : BufTy).Contents (Elt F)),
    binary main_v7 main_v7 main_v12 (mulf : (⟨S4194304, .f32⟩ : BufTy).Contents (Elt F) → (⟨S4194304, .f32⟩ : BufTy).Contents (Elt F) → (⟨S4194304, .f32⟩ : BufTy).Contents (Elt F)),
    binary main_v3 main_v9 main_v13 (mulf : (⟨S4194304, .f32⟩ : BufTy).Contents (Elt F) → (⟨S4194304, .f32⟩ : BufTy).Contents (Elt F) → (⟨S4194304, .f32⟩ : BufTy).Contents (Elt F)),
    binary main_v5 main_v5 main_v14 (mulf : (⟨S4194304, .f32⟩ : BufTy).Contents (Elt F) → (⟨S4194304, .f32⟩ : BufTy).Contents (Elt F) → (⟨S4194304, .f32⟩ : BufTy).Contents (Elt F)),
    binary main_v3 main_v7 main_v15 (mulf : (⟨S4194304, .f32⟩ : BufTy).Contents (Elt F) → (⟨S4194304, .f32⟩ : BufTy).Contents (Elt F) → (⟨S4194304, .f32⟩ : BufTy).Contents (Elt F)),
    binary main_v5 main_v1 main_v16 (mulf : (⟨S4194304, .f32⟩ : BufTy).Contents (Elt F) → (⟨S4194304, .f32⟩ : BufTy).Contents (Elt F) → (⟨S4194304, .f32⟩ : BufTy).Contents (Elt F)),
    binary main_v9 main_v1 main_v17 (mulf : (⟨S4194304, .f32⟩ : BufTy).Contents (Elt F) → (⟨S4194304, .f32⟩ : BufTy).Contents (Elt F) → (⟨S4194304, .f32⟩ : BufTy).Contents (Elt F)),
    binary main_v5 main_v7 main_v18 (mulf : (⟨S4194304, .f32⟩ : BufTy).Contents (Elt F) → (⟨S4194304, .f32⟩ : BufTy).Contents (Elt F) → (⟨S4194304, .f32⟩ : BufTy).Contents (Elt F)),
    unary main_v10 main_v19 (broadcastInDim S4194304x1 ![0] bcast_S4194304_S4194304x1_0 : (⟨S4194304, .f32⟩ : BufTy).Contents (Elt F) → (⟨S4194304x1, .f32⟩ : BufTy).Contents (Elt F)),
    unary main_v3 main_v20 (broadcastInDim S4194304x1 ![0] bcast_S4194304_S4194304x1_0 : (⟨S4194304, .f32⟩ : BufTy).Contents (Elt F) → (⟨S4194304x1, .f32⟩ : BufTy).Contents (Elt F)),
    unary main_v11 main_v21 (broadcastInDim S4194304x1 ![0] bcast_S4194304_S4194304x1_0 : (⟨S4194304, .f32⟩ : BufTy).Contents (Elt F) → (⟨S4194304x1, .f32⟩ : BufTy).Contents (Elt F)),
    unary main_v5 main_v22 (broadcastInDim S4194304x1 ![0] bcast_S4194304_S4194304x1_0 : (⟨S4194304, .f32⟩ : BufTy).Contents (Elt F) → (⟨S4194304x1, .f32⟩ : BufTy).Contents (Elt F)),
    unary main_v12 main_v23 (broadcastInDim S4194304x1 ![0] bcast_S4194304_S4194304x1_0 : (⟨S4194304, .f32⟩ : BufTy).Contents (Elt F) → (⟨S4194304x1, .f32⟩ : BufTy).Contents (Elt F)),
    unary main_v9 main_v24 (broadcastInDim S4194304x1 ![0] bcast_S4194304_S4194304x1_0 : (⟨S4194304, .f32⟩ : BufTy).Contents (Elt F) → (⟨S4194304x1, .f32⟩ : BufTy).Contents (Elt F)),
    unary main_v13 main_v25 (broadcastInDim S4194304x1 ![0] bcast_S4194304_S4194304x1_0 : (⟨S4194304, .f32⟩ : BufTy).Contents (Elt F) → (⟨S4194304x1, .f32⟩ : BufTy).Contents (Elt F)),
    unary main_v14 main_v26 (broadcastInDim S4194304x1 ![0] bcast_S4194304_S4194304x1_0 : (⟨S4194304, .f32⟩ : BufTy).Contents (Elt F) → (⟨S4194304x1, .f32⟩ : BufTy).Contents (Elt F)),
    unary main_v15 main_v27 (broadcastInDim S4194304x1 ![0] bcast_S4194304_S4194304x1_0 : (⟨S4194304, .f32⟩ : BufTy).Contents (Elt F) → (⟨S4194304x1, .f32⟩ : BufTy).Contents (Elt F)),
    unary main_v16 main_v28 (broadcastInDim S4194304x1 ![0] bcast_S4194304_S4194304x1_0 : (⟨S4194304, .f32⟩ : BufTy).Contents (Elt F) → (⟨S4194304x1, .f32⟩ : BufTy).Contents (Elt F)),
    unary main_v17 main_v29 (broadcastInDim S4194304x1 ![0] bcast_S4194304_S4194304x1_0 : (⟨S4194304, .f32⟩ : BufTy).Contents (Elt F) → (⟨S4194304x1, .f32⟩ : BufTy).Contents (Elt F)),
    unary main_v18 main_v30 (broadcastInDim S4194304x1 ![0] bcast_S4194304_S4194304x1_0 : (⟨S4194304, .f32⟩ : BufTy).Contents (Elt F) → (⟨S4194304x1, .f32⟩ : BufTy).Contents (Elt F)),
    nary ![main_v19, main_v20, main_v21, main_v22, main_v23, main_v24, main_v25, main_v26, main_v27, main_v28, main_v29, main_v30] main_v31 (fun u => concatenate S4194304x12 1 [⟨S4194304x1, u 0⟩, ⟨S4194304x1, u 1⟩, ⟨S4194304x1, u 2⟩, ⟨S4194304x1, u 3⟩, ⟨S4194304x1, u 4⟩, ⟨S4194304x1, u 5⟩, ⟨S4194304x1, u 6⟩, ⟨S4194304x1, u 7⟩, ⟨S4194304x1, u 8⟩, ⟨S4194304x1, u 9⟩, ⟨S4194304x1, u 10⟩, ⟨S4194304x1, u 11⟩] concatenates_S4194304x1_S4194304x1_S4194304x1_S4194304x1_S4194304x1_S4194304x1_S4194304x1_S4194304x1_S4194304x1_S4194304x1_S4194304x1_S4194304x1_S4194304x12_d1),
    nullary main_cst_0 (constant S_ .f32 0x41200000#32),
    unary main_cst_0 main_v32 (broadcastInDim S12 ![] bcast_S_S12 : (⟨S_, .f32⟩ : BufTy).Contents (Elt F) → (⟨S12, .f32⟩ : BufTy).Contents (Elt F)),
    binary main_v32 main_arg1 main_v33 (Host.powf : (⟨S12, .f32⟩ : BufTy).Contents (Elt F) → (⟨S12, .f32⟩ : BufTy).Contents (Elt F) → (⟨S12, .f32⟩ : BufTy).Contents (Elt F)),
    unary main_v33 main_v34 (broadcastInDim S1x12 ![1] bcast_S12_S1x12_1 : (⟨S12, .f32⟩ : BufTy).Contents (Elt F) → (⟨S1x12, .f32⟩ : BufTy).Contents (Elt F)),
    unary main_v34 main_v35 (broadcastInDim S4194304x12 ![0, 1] bcast_S1x12_S4194304x12_0_1 : (⟨S1x12, .f32⟩ : BufTy).Contents (Elt F) → (⟨S4194304x12, .f32⟩ : BufTy).Contents (Elt F)),
    binary main_v35 main_v31 main_v36 (mulf : (⟨S4194304x12, .f32⟩ : BufTy).Contents (Elt F) → (⟨S4194304x12, .f32⟩ : BufTy).Contents (Elt F) → (⟨S4194304x12, .f32⟩ : BufTy).Contents (Elt F)),
    unary main_cst main_v37 ((transpose S12x5 [1, 0] · transposes_S5x12_S12x5_1_0) : (⟨S5x12, .f32⟩ : BufTy).Contents (Elt F) → (⟨S12x5, .f32⟩ : BufTy).Contents (Elt F)),
    binary main_v36 main_v37 main_v38 ((fun l r => Host.dotGeneral dot_S4194304x12_S12x5_S4194304x5_1_0_0_1_n_n none l r) : (⟨S4194304x12, .f32⟩ : BufTy).Contents (Elt F) → (⟨S12x5, .f32⟩ : BufTy).Contents (Elt F) → (⟨S4194304x5, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., unary_bufs_sub .., reshape_bufs_sub .., unary_bufs_sub .., reshape_bufs_sub ..,
   unary_bufs_sub .., reshape_bufs_sub .., unary_bufs_sub .., reshape_bufs_sub ..,
   binary_bufs_sub .., binary_bufs_sub .., binary_bufs_sub .., binary_bufs_sub .., binary_bufs_sub .., binary_bufs_sub .., binary_bufs_sub ..,
   binary_bufs_sub .., binary_bufs_sub ..,
   unary_bufs_sub .., unary_bufs_sub .., unary_bufs_sub .., unary_bufs_sub .., unary_bufs_sub .., unary_bufs_sub .., unary_bufs_sub ..,
   unary_bufs_sub .., unary_bufs_sub .., unary_bufs_sub .., unary_bufs_sub .., unary_bufs_sub ..,
   nary_bufs_sub .., nullary_bufs_sub .., unary_bufs_sub .., binary_bufs_sub .., unary_bufs_sub .., unary_bufs_sub .., binary_bufs_sub ..,
   unary_bufs_sub .., binary_bufs_sub ..⟩

/-- The result buffer after the line, from any contents `V` of the buffers before it. -/
theorem result_eq (V : Valuation τ sig (Elt F)) :
    after (ops (F := F)) V (Proc.devRef .tc main_v38) = out (V (Proc.devRef .tc main_arg0)) (V (Proc.devRef .tc main_arg1)) := by
  after_results12_simp
  first | done | rfl

/-- On every device, from any memory with zero counters: every weakly fair execution of @main terminates with the
    result at `out` of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (result_eq _),
      (h c main_arg0).trans (by after_results),
      (h c main_arg1).trans (by after_results)⟩)
    (run_seq scopedRefs_eq scopedSems_eq defs main (fun _ => ops) main_eq (fun _ => ops_sub) m ρ)

end Cert.ReferenceIdeal.Hand

end
-- ==== Proof.RefValue.lean ====
/-
  The reference's result, entry by entry.

  `out x w` (the reference's forty-one operations composed) at entry `(r, q)` is the host's contraction, a sum
  over the twelve columns; column `k` of its left operand is the channel factor `10 ^ w k` times the `k`-th term
  of row `r` of `x`, its right operand is the transposed table. Up to the order of the two factors, which the
  extended reals do not mind, that is `rate` of row `r`: the reference's array is `G x (scale w) table`.
-/
import proofs.«147797_j34102040330828_1_alg».proof.Proof.RefRun
import proofs.«147797_j34102040330828_1_alg».proof.Proof.Spec
import proofs.«147797_j34102040330828_1_alg».proof.Proof.LibPlainDot

noncomputable section

open scoped BigOperators

namespace Cert.ReferenceIdeal.Hand

open Cert.ReferenceIdeal Cert.ReferenceIdeal.Gen Idealize.ShloMosaic Idealize.ShloMosaic.ValueIdx Cert.Flux

/-- The reference's array is `G` of `x`, the channel factors and the transposed table. -/
theorem out_eq (x : FVec Ideal S4194304x5 .f32) (w : FVec Ideal S12 .f32) :
    out (F := Ideal) x w = G (M := 4194304) x (scale w) (table (F := Ideal)) := by
  funext i
  obtain ⟨r, q, rfl⟩ : ∃ (r : Fin 4194304) (q : Fin 5), i = ix2 r q := ⟨i 0, i 1, eq_ix2 i⟩
  rw [G_apply]
  unfold out
  refine (PlainDot.dotGeneral_apply dot_S4194304x12_S12x5_S4194304x5_1_0_0_1_n_n rfl rfl rfl rfl rfl rfl rfl rfl
    none _ _ r q).trans ?_
  unfold rate
  refine Finset.sum_congr rfl fun k _ => ?_
  rw [mulf_apply]
  unfold scaleRows
  rw [bcastAlongRows_apply, mul_comm (scale w (ix1 k))]
  refine congrArg (fun t => t * scale w (ix1 k) * table (F := Ideal) (ix2 k q)) ?_
  unfold products
  refine columns12_eq _ _ _ _ _ _ _ _ _ _ _ _ _ r (terms fun a => x (ix2 r a)) ?_ ?_ ?_ ?_ ?_ ?_ ?_ ?_ ?_ ?_ ?_ ?_ k
  · unfold col z0; rw [bcastColumn_apply, mulf_apply, column_apply x 0 _ _ r 0 rfl]; rfl
  · unfold col z1; rw [bcastColumn_apply, column_apply x 1 _ _ r 1 rfl]; rfl
  · unfold col z0 z3; rw [bcastColumn_apply, mulf_apply, column_apply x 0 _ _ r 0 rfl, column_apply x 3 _ _ r 3 rfl]; rfl
  · unfold col z2; rw [bcastColumn_apply, column_apply x 2 _ _ r 2 rfl]; rfl
  · unfold col z3; rw [bcastColumn_apply, mulf_apply, column_apply x 3 _ _ r 3 rfl]; rfl
  · unfold col z4; rw [bcastColumn_apply, column_apply x 4 _ _ r 4 rfl]; rfl
  · unfold col z1 z4; rw [bcastColumn_apply, mulf_apply, column_apply x 1 _ _ r 1 rfl, column_apply x 4 _ _ r 4 rfl]; rfl
  · unfold col z2; rw [bcastColumn_apply, mulf_apply, column_apply x 2 _ _ r 2 rfl]; rfl
  · unfold col z1 z3; rw [bcastColumn_apply, mulf_apply, column_apply x 1 _ _ r 1 rfl, column_apply x 3 _ _ r 3 rfl]; rfl
  · unfold col z2 z0; rw [bcastColumn_apply, mulf_apply, column_apply x 2 _ _ r 2 rfl, column_apply x 0 _ _ r 0 rfl]; rfl
  · unfold col z4 z0; rw [bcastColumn_apply, mulf_apply, column_apply x 4 _ _ r 4 rfl, column_apply x 0 _ _ r 0 rfl]; rfl
  · unfold col z2 z3; rw [bcastColumn_apply, mulf_apply, column_apply x 2 _ _ r 2 rfl, column_apply x 3 _ _ r 3 rfl]; rfl

end Cert.ReferenceIdeal.Hand

end
-- ==== Proof.lean ====
/-
  The kernel against its reference, over the extended reals.

  Both programs take `x : [4194304, 5]` and twelve weights `w`. From the five entries `z 0 … z 4` of a row they
  form the same twelve products (`z 0 · z 0, z 1, z 0 · z 3, z 2, z 3 · z 3, z 4, z 1 · z 4, z 2 · z 2, z 1 · z 3,
  z 2 · z 0, z 4 · z 0, z 2 · z 3`), scale product `k` by `10 ^ w k`, and contract the twelve scaled products
  with a fixed 12 × 5 table of small integers. The kernel does it block by block, 4096 rows at a grid point,
  multiplies the product by the factor and feeds the matrix unit through a narrower format; the reference does it
  on the whole array, multiplies the factor by the product and calls the host's contraction. At the ideal values
  the narrowing is the identity, both contractions are the plain sum over the twelve columns, and the order of two
  factors does not matter: both result arrays are `Flux.G x (10 ^ w) tableᵀ`, entry `(r, q)` being
  `∑ k, terms (row r of x) k · 10 ^ w k · table q k`. No cancellation or distribution is used, so the finiteness of
  the inputs is never opened.

  The kernel's frames are the generated ones; the reference's frame is its run with the result dropped; the
  idealization rewrote nothing, so `preserves` is `True`.
-/
import proofs.«147797_j34102040330828_1_alg».proof.Defs
import proofs.«147797_j34102040330828_1_alg».proof.Proof.Gen.Kernel
import proofs.«147797_j34102040330828_1_alg».proof.Proof.Gen.Kernel.Skeleton
import proofs.«147797_j34102040330828_1_alg».proof.Proof.Gen.Kernel.Launch
import proofs.«147797_j34102040330828_1_alg».proof.Proof.Gen.Kernel.Points
import proofs.«147797_j34102040330828_1_alg».proof.Proof.Gen.Kernel.Frame
import proofs.«147797_j34102040330828_1_alg».proof.Proof.Gen.KernelIdeal
import proofs.«147797_j34102040330828_1_alg».proof.Proof.Gen.KernelIdeal.Skeleton
import proofs.«147797_j34102040330828_1_alg».proof.Proof.Gen.KernelIdeal.Launch
import proofs.«147797_j34102040330828_1_alg».proof.Proof.Gen.KernelIdeal.Points
import proofs.«147797_j34102040330828_1_alg».proof.Proof.Gen.KernelIdeal.Frame
import proofs.«147797_j34102040330828_1_alg».proof.Proof.Gen.KernelIdeal.Value
import proofs.«147797_j34102040330828_1_alg».proof.Proof.Gen.ReferenceIdeal
import proofs.«147797_j34102040330828_1_alg».proof.Proof.Gen.Pre_finite_inputs
import proofs.«147797_j34102040330828_1_alg».proof.Proof.KernelArray
import proofs.«147797_j34102040330828_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The two programs carry the same table of small integers. -/
theorem table_eq : Cert.KernelIdeal.Hand.table = Cert.ReferenceIdeal.Hand.table (F := Ideal) := by
  have h : Cert.KernelIdeal.lit0 = Cert.ReferenceIdeal.lit0 := by decide
  unfold Cert.KernelIdeal.Hand.table Cert.ReferenceIdeal.Hand.table
  rw [h]

/-- And the same powers of ten. -/
theorem scale_eq (w : FVec Ideal Cert.KernelIdeal.S12 .f32) :
    Cert.KernelIdeal.Hand.scale w = Cert.ReferenceIdeal.Hand.scale (F := Ideal) w := rfl

/-- Both result arrays are `Flux.G` of `x`, the powers of ten of the weights and the transposed table. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2, Cert.ReferenceIdeal.Hand.out_eq, ← scale_eq, ← table_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
